-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x256x16 : Shape := ⟨4, ![32, 256, 256, 16]⟩
abbrev S_ : Shape := ⟨0, ![]⟩

class Facts : Prop where
  bcast_S_S32x256x256x16 : S_.BroadcastsInDim S32x256x256x16 (![] : Fin 0 → Fin S32x256x256x16.rank)
  reducesTo_S32x256x256x16_S_d0_1_2_3 : S32x256x256x16.ReducesTo [0, 1, 2, 3] S_
  h_S_ : 0 < S_.numel

variable [Facts]

def fn {F : FTy → Type} [FloatOps F] (main_arg0 : FVec F S32x256x256x16 .f32) : IVec S_ 1 :=
  let main_v0 : FVec F S32x256x256x16 .f32 := Host.absf main_arg0
  let main_cst : FVec F S_ .f32 := constant S_ .f32 0x7F800000#32
  let main_v1 : FVec F S32x256x256x16 .f32 := broadcastInDim S32x256x256x16 ![] bcast_S_S32x256x256x16 main_cst
  let main_v2 : IVec S32x256x256x16 1 := cmpf .olt main_v0 main_v1
  let main_c : IVec S_ 1 := constantI S_ 1 1#1
  let main_v3 : IVec S_ 1 := (fun x v => Host.reduce IntOp.andi x v reducesTo_S32x256x256x16_S_d0_1_2_3 h_S_) main_v2 main_c
  main_v3
-- ==== Kernel.lean ====
abbrev S32x256x256x16 : Shape := ⟨4, ![32, 256, 256, 16]⟩
abbrev S32x256x4096 : Shape := ⟨3, ![32, 256, 4096]⟩
abbrev S32x8x4096 : Shape := ⟨3, ![32, 8, 4096]⟩
abbrev S8x4096 : Shape := ⟨2, ![8, 4096]⟩
abbrev S8x256x16 : Shape := ⟨3, ![8, 256, 16]⟩
abbrev S8x256 : Shape := ⟨2, ![8, 256]⟩
abbrev S8x256x1 : Shape := ⟨3, ![8, 256, 1]⟩
abbrev S1x8x4096 : Shape := ⟨3, ![1, 8, 4096]⟩

abbrev nBuf : Space → Nat
  | .hbm => 4
  | .vmem => 4
  | .smem => 0
  | _ => 0

abbrev bufTy : (tb : Table) → Fin (tcTables nBuf tb) → BufTy
  | .hbm, ⟨0, _⟩ => ⟨S32x256x256x16, .f32⟩
  | .hbm, ⟨1, _⟩ => ⟨S32x256x4096, .f32⟩
  | .hbm, ⟨2, _⟩ => ⟨S32x256x4096, .f32⟩
  | .hbm, ⟨3, _⟩ => ⟨S32x256x256x16, .f32⟩
  | .local _ .vmem, ⟨0, _⟩ => ⟨S32x8x4096, .f32⟩
  | .local _ .vmem, ⟨1, _⟩ => ⟨S32x8x4096, .f32⟩
  | .local _ .vmem, ⟨2, _⟩ => ⟨S32x8x4096, .f32⟩
  | .local _ .vmem, ⟨3, _⟩ => ⟨S32x8x4096, .f32⟩
  | _, _ => ⟨S32x256x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x256x256x16_S32x256x4096 : S32x256x256x16.ShapeCasts S32x256x4096
  inb_S32x8x4096_S32x8x4096_0_0_0 : ∀ a, (![0, 0, 0] : Fin 3 → Nat) a + S32x8x4096.size a ≤ S32x8x4096.size a
  h_S32x8x4096 : 0 < S32x8x4096.numel
  shapeCasts_S32x8x4096_S32x8x4096 : S32x8x4096.ShapeCasts S32x8x4096
  reduces_S32x8x4096_S8x4096 : S32x8x4096.Reduces [0] S8x4096
  shapeCasts_S8x4096_S8x256x16 : S8x4096.ShapeCasts S8x256x16
  reduces_S8x256x16_S8x256 : S8x256x16.Reduces [2] S8x256
  shapeCasts_S8x256_S8x256x1 : S8x256.ShapeCasts S8x256x1
  shapeCasts_S8x256x1_S8x256x1 : S8x256x1.ShapeCasts S8x256x1
  broadcasts_S8x256x1_S8x256x16 : S8x256x1.Broadcasts S8x256x16
  shapeCasts_S8x256x16_S8x4096 : S8x256x16.ShapeCasts S8x4096
  shapeCasts_S8x4096_S1x8x4096 : S8x4096.ShapeCasts S1x8x4096
  broadcasts_S1x8x4096_S32x8x4096 : S1x8x4096.Broadcasts S32x8x4096
  shapeCasts_S32x256x4096_S32x256x256x16 : S32x256x4096.ShapeCasts S32x256x256x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8x4096.size a ≤ S32x256x4096.size a
  hwx0_0 : ∀ i : grid0.Coords, EltTy.bits .f32 = 32 ∨ (Rect.block (s := S32x256x4096) S32x8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8x4096.size a ≤ S32x256x4096.size a
  hwx0_1 : ∀ i : grid0.Coords, EltTy.bits .f32 = 32 ∨ (Rect.block (s := S32x256x4096) S32x8x4096.size (cc0_transform_1 i) (hinb0_1 i)).WholeWords (EltTy.packing .f32)

variable [Facts₀]

abbrev win0_0 : Pipeline.Window sig grid0 :=
  Pipeline.Window.ofSpec (Memref.whole main_v0) S32x8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x8x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x256x256x16 : Shape := ⟨4, ![32, 256, 256, 16]⟩
abbrev S_ : Shape := ⟨0, ![]⟩
abbrev S256x256 : Shape := ⟨2, ![256, 256]⟩
abbrev S1x256x256x1 : Shape := ⟨4, ![1, 256, 256, 1]⟩

abbrev nBuf : Space → Nat
  | .hbm => 31
  | .vmem => 0
  | .smem => 0
  | _ => 0

abbrev bufTy : (tb : Table) → Fin (tcTables nBuf tb) → BufTy
  | .hbm, ⟨0, _⟩ => ⟨S32x256x256x16, .f32⟩
  | .hbm, ⟨1, _⟩ => ⟨S_, .f32⟩
  | .hbm, ⟨2, _⟩ => ⟨S256x256, .f32⟩
  | .hbm, ⟨3, _⟩ => ⟨S_, .f32⟩
  | .hbm, ⟨4, _⟩ => ⟨S256x256, .f32⟩
  | .hbm, ⟨5, _⟩ => ⟨S256x256, .f32⟩
  | .hbm, ⟨6, _⟩ => ⟨S1x256x256x1, .f32⟩
  | .hbm, ⟨7, _⟩ => ⟨S_, .f32⟩
  | .hbm, ⟨8, _⟩ => ⟨S1x256x256x1, .f32⟩
  | .hbm, ⟨9, _⟩ => ⟨S1x256x256x1, .f32⟩
  | .hbm, ⟨10, _⟩ => ⟨S_, .f32⟩
  | .hbm, ⟨11, _⟩ => ⟨S1x256x256x1, .f32⟩
  | .hbm, ⟨12, _⟩ => ⟨S1x256x256x1, .f32⟩
  | .hbm, ⟨13, _⟩ => ⟨S_, .f32⟩
  | .hbm, ⟨14, _⟩ => ⟨S1x256x256x1, .f32⟩
  | .hbm, ⟨15, _⟩ => ⟨S1x256x256x1, .i1⟩
  | .hbm, ⟨16, _⟩ => ⟨S_, .f32⟩
  | .hbm, ⟨17, _⟩ => ⟨S32x256x256x16, .f32⟩
  | .hbm, ⟨18, _⟩ => ⟨S32x256x256x16, .f32⟩
  | .hbm, ⟨19, _⟩ => ⟨S32x256x256x16, .f32⟩
  | .hbm, ⟨20, _⟩ => ⟨S32x256x256x16, .f32⟩
  | .hbm, ⟨21, _⟩ => ⟨S_, .f32⟩
  | .hbm, ⟨22, _⟩ => ⟨S32x256x256x16, .f32⟩
  | .hbm, ⟨23, _⟩ => ⟨S32x256x256x16, .f32⟩
  | .hbm, ⟨24, _⟩ => ⟨S32x256x256x16, .f32⟩
  | .hbm, ⟨25, _⟩ => ⟨S32x256x256x16, .f32⟩
  | .hbm, ⟨26, _⟩ => ⟨S_, .f32⟩
  | .hbm, ⟨27, _⟩ => ⟨S32x256x256x16, .f32⟩
  | .hbm, ⟨28, _⟩ => ⟨S32x256x256x16, .f32⟩
  | .hbm, ⟨29, _⟩ => ⟨S32x256x256x16, .i1⟩
  | .hbm, ⟨30, _⟩ => ⟨S32x256x256x16, .f32⟩
  | _, _ => ⟨S32x256x256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_cst_4 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_5 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_6 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S32x256x256x16_S256x256_d0_3 : S32x256x256x16.ReducesTo [0, 3] S256x256
  h_S_ : 0 < S_.numel
  bcast_S_S256x256 : S_.BroadcastsInDim S256x256 (![] : Fin 0 → Fin S256x256.rank)
  bcast_S256x256_S1x256x256x1_1_2 : S256x256.BroadcastsInDim S1x256x256x1 (![1, 2] : Fin 2 → Fin S1x256x256x1.rank)
  bcast_S_S1x256x256x1 : S_.BroadcastsInDim S1x256x256x1 (![] : Fin 0 → Fin S1x256x256x1.rank)
  bcast_S_S32x256x256x16 : S_.BroadcastsInDim S32x256x256x16 (![] : Fin 0 → Fin S32x256x256x16.rank)
  bcast_S1x256x256x1_S32x256x256x16_0_1_2_3 : S1x256x256x1.BroadcastsInDim S32x256x256x16 (![0, 1, 2, 3] : Fin 4 → Fin S32x256x256x16.rank)

variable [Facts₀]

class Facts : Prop extends Facts₀ where

variable [Facts]
-- ==== Proof.LibReal.lean ====
/-
  Finite reals among the extended reals. At the ideal float instance a value is an extended real;
  the laws of real arithmetic (a variance as a mean of squares minus the squared mean, say) hold
  of the FINITE ones only. This module names the predicate "is the coercion of a real", shows it
  closed under the ideal operations a kernel and its reference are built from (sum, difference,
  product, finite sums, quotient by a nonzero real, exponential, maximum and its folds), and reads
  the four f32 words a program spells for 0, 524288, +∞ and -∞.
-/
import Idealize.ShloMosaic.PureOps.Ideal
import Idealize.ShloMosaic.PureOps.Ideal.Laws
import Mathlib.Data.EReal.Operations
import Mathlib.Data.EReal.Inv
import Mathlib.Data.Finset.Fold
import Mathlib.Algebra.BigOperators.Group.Finset.Basic
import Mathlib.Analysis.SpecialFunctions.Exp

noncomputable section

namespace Cert.LibReal

open Idealize.ShloMosaic
open scoped BigOperators

/-- `x` is a finite real: the image of some `r : ℝ` in the extended reals. -/
def IsReal (x : EReal) : Prop := ∃ r : ℝ, x = (r : EReal)

/-- `x` is a positive finite real. -/
def IsPosReal (x : EReal) : Prop := ∃ r : ℝ, 0 < r ∧ x = (r : EReal)

/-! ## The predicate -/

/-- The image of a real is a finite real. -/
theorem isReal_coe (r : ℝ) : IsReal (r : EReal) := ⟨r, rfl⟩

/-- Zero is a finite real. -/
theorem isReal_zero : IsReal 0 := ⟨0, EReal.coe_zero.symm⟩

/-- One is a finite real. -/
theorem isReal_one : IsReal 1 := ⟨1, EReal.coe_one.symm⟩

/-- A finite real is not `-∞`. -/
theorem IsReal.ne_bot {x : EReal} (hx : IsReal x) : x ≠ ⊥ := by
  obtain ⟨r, rfl⟩ := hx; exact EReal.coe_ne_bot r

/-- A finite real is not `+∞`. -/
theorem IsReal.ne_top {x : EReal} (hx : IsReal x) : x ≠ ⊤ := by
  obtain ⟨r, rfl⟩ := hx; exact EReal.coe_ne_top r

/-- The finite reals are exactly the extended reals other than the two infinities. -/
theorem isReal_iff {x : EReal} : IsReal x ↔ x ≠ ⊥ ∧ x ≠ ⊤ := by
  constructor
  · intro hx; exact ⟨hx.ne_bot, hx.ne_top⟩
  · rintro ⟨hb, ht⟩
    induction x using EReal.rec with
    | bot => exact absurd rfl hb
    | top => exact absurd rfl ht
    | coe r => exact ⟨r, rfl⟩

/-- A positive finite real is a finite real. -/
theorem IsPosReal.isReal {x : EReal} (hx : IsPosReal x) : IsReal x := by
  obtain ⟨r, _, rfl⟩ := hx; exact ⟨r, rfl⟩

/-- A positive finite real is above zero in the order of the extended reals. -/
theorem IsPosReal.pos {x : EReal} (hx : IsPosReal x) : 0 < x := by
  obtain ⟨r, hr, rfl⟩ := hx; exact EReal.coe_pos.mpr hr

/-- A positive finite real is not zero. -/
theorem IsPosReal.ne_zero {x : EReal} (hx : IsPosReal x) : x ≠ 0 := hx.pos.ne'

/-- The image of a positive real is a positive finite real. -/
theorem isPosReal_coe {r : ℝ} (hr : 0 < r) : IsPosReal (r : EReal) := ⟨r, hr, rfl⟩

/-! ## Sum, difference, product, negation -/

/-- The sum of two finite reals is a finite real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite reals is a finite real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite reals is a finite real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite real is a finite real. -/
theorem IsReal.neg {x : EReal} (hx : IsReal x) : IsReal (-x) := by
  obtain ⟨a, rfl⟩ := hx; exact ⟨-a, (EReal.coe_neg a).symm⟩

/-- The sum of two positive finite reals is a positive finite real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive finite reals is a positive finite real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-! ## Finite sums -/

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of extended reals that are termwise the images of reals is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_finset_sum]; exact Finset.sum_congr rfl h

/-- A finite sum of finite reals is a finite real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum over a finite type of finite reals is a finite real. -/
theorem IsReal.sum_univ {ι : Type*} [Fintype ι] (f : ι → EReal) (h : ∀ i, IsReal (f i)) :
    IsReal (∑ i, f i) :=
  IsReal.sum Finset.univ f fun i _ => h i

/-- A finite sum, over a nonempty index set, of positive finite reals is a positive finite real. -/
theorem IsPosReal.sum {ι : Type*} (s : Finset ι) (hs : s.Nonempty) (f : ι → EReal)
    (h : ∀ i ∈ s, IsPosReal (f i)) : IsPosReal (∑ i ∈ s, f i) := by
  classical
  induction s using Finset.induction_on with
  | empty => exact absurd hs Finset.not_nonempty_empty
  | insert a s ha ih =>
    rw [Finset.sum_insert ha]
    rcases s.eq_empty_or_nonempty with rfl | hne
    · rw [Finset.sum_empty, add_zero]; exact h a (Finset.mem_insert_self _ _)
    · exact (h a (Finset.mem_insert_self _ _)).add (ih hne fun i hi => h i (Finset.mem_insert_of_mem hi))

/-- A sum over a nonempty finite type of positive finite reals is a positive finite real, hence not zero. -/
theorem IsPosReal.sum_univ {ι : Type*} [Fintype ι] [Nonempty ι] (f : ι → EReal) (h : ∀ i, IsPosReal (f i)) :
    IsPosReal (∑ i, f i) :=
  IsPosReal.sum Finset.univ Finset.univ_nonempty f fun i _ => h i

/-! ## The ideal quotient -/

/-- The ideal quotient of two reals with a nonzero divisor is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The ideal quotient of a finite real by a nonzero real is a finite real. -/
theorem IsReal.div_coe {x : EReal} (hx : IsReal x) {b : ℝ} (hb : b ≠ 0) : IsReal (Ideal.div x (b : EReal)) := by
  obtain ⟨a, rfl⟩ := hx; exact ⟨a / b, div_coe_coe a hb⟩

/-- The ideal quotient of a finite real by a nonzero finite real is a finite real. -/
theorem IsReal.div {x y : EReal} (hx : IsReal x) (hy : IsReal y) (hy0 : y ≠ 0) : IsReal (Ideal.div x y) := by
  obtain ⟨b, rfl⟩ := hy
  exact hx.div_coe (EReal.coe_ne_zero.mp hy0)

/-- The ideal quotient of a finite real by a positive finite real is a finite real. -/
theorem IsReal.div_pos {x y : EReal} (hx : IsReal x) (hy : IsPosReal y) : IsReal (Ideal.div x y) :=
  hx.div hy.isReal hy.ne_zero

/-! ## The ideal exponential -/

/-- The ideal exponential of a finite real is a positive finite real. -/
theorem IsReal.exp_pos {x : EReal} (hx : IsReal x) : IsPosReal (Ideal.exp x) := by
  obtain ⟨a, rfl⟩ := hx; exact ⟨Real.exp a, Real.exp_pos a, Ideal.exp_coe a⟩

/-- The ideal exponential of a finite real is a finite real. -/
theorem IsReal.exp {x : EReal} (hx : IsReal x) : IsReal (Ideal.exp x) := hx.exp_pos.isReal

/-! ## Maximum, minimum, and a fold of the maximum from `-∞` -/

/-- The maximum of two finite reals is a finite real. -/
theorem IsReal.max {x y : EReal} (hx : IsReal x) (hy : IsReal y) : IsReal (max x y) := by
  rcases max_choice x y with h | h <;> rw [h] <;> assumption

/-- The minimum of two finite reals is a finite real. -/
theorem IsReal.min {x y : EReal} (hx : IsReal x) (hy : IsReal y) : IsReal (min x y) := by
  rcases min_choice x y with h | h <;> rw [h] <;> assumption

/-- A fold of the maximum from `-∞` over finite reals is `-∞` or a finite real, and a finite real as soon as
    the index set is nonempty. The operation is any one that IS the maximum (the order's `max`, or the ideal
    instance's `maximumf`, which carry different commutativity and associativity witnesses). -/
theorem fold_max_bot_aux {ι : Type*} (op : EReal → EReal → EReal) [Std.Commutative op] [Std.Associative op]
    (hop : ∀ x y, op x y = Max.max x y) (f : ι → EReal) (s : Finset ι) (h : ∀ i ∈ s, IsReal (f i)) :
    (s.fold op ⊥ f = ⊥ ∨ IsReal (s.fold op ⊥ f)) ∧ (s.Nonempty → IsReal (s.fold op ⊥ f)) := by
  classical
  induction s using Finset.induction_on with
  | empty => exact ⟨Or.inl Finset.fold_empty, fun hne => absurd hne Finset.not_nonempty_empty⟩
  | insert a s ha ih =>
    have hr : IsReal ((insert a s).fold op ⊥ f) := by
      rw [Finset.fold_insert ha, hop]
      rcases (ih fun i hi => h i (Finset.mem_insert_of_mem hi)).1 with hb | hb
      · rw [hb, max_eq_left bot_le]; exact h a (Finset.mem_insert_self _ _)
      · exact (h a (Finset.mem_insert_self _ _)).max hb
    exact ⟨Or.inr hr, fun _ => hr⟩

/-- The maximum of a nonempty finite family of finite reals, folded from `-∞`, is a finite real. -/
theorem IsReal.fold_max_bot {ι : Type*} (op : EReal → EReal → EReal) [Std.Commutative op] [Std.Associative op]
    (hop : ∀ x y, op x y = Max.max x y) (s : Finset ι) (hs : s.Nonempty) (f : ι → EReal)
    (h : ∀ i ∈ s, IsReal (f i)) : IsReal (s.fold op ⊥ f) :=
  (fold_max_bot_aux op hop f s h).2 hs

/-- The same for the order's own `max`. -/
theorem IsReal.fold_max {ι : Type*} (s : Finset ι) (hs : s.Nonempty) (f : ι → EReal)
    (h : ∀ i ∈ s, IsReal (f i)) : IsReal (s.fold Max.max ⊥ f) :=
  IsReal.fold_max_bot Max.max (fun _ _ => rfl) s hs f h

/-- The same for the ideal instance's `maximumf`, at any format. -/
theorem IsReal.fold_maximumf {φ : FTy} {ι : Type*} (s : Finset ι) (hs : s.Nonempty) (f : ι → Ideal φ)
    (h : ∀ i ∈ s, IsReal (f i)) :
    IsReal (s.fold (FloatOps.maximumf (F := Ideal) (φ := φ)) (⊥ : EReal) f) :=
  IsReal.fold_max_bot (FloatOps.maximumf (F := Ideal) (φ := φ)) (fun _ _ => rfl) s hs f h

/-- A fold of the maximum from a finite real over finite reals is a finite real, whatever the index set. -/
theorem IsReal.fold_max_of_isReal {ι : Type*} (op : EReal → EReal → EReal) [Std.Commutative op] [Std.Associative op]
    (hop : ∀ x y, op x y = Max.max x y) (s : Finset ι) (f : ι → EReal) {b : EReal} (hb : IsReal b)
    (h : ∀ i ∈ s, IsReal (f i)) : IsReal (s.fold op b f) := by
  classical
  induction s using Finset.induction_on with
  | empty => rw [Finset.fold_empty]; exact hb
  | insert a s ha ih =>
    rw [Finset.fold_insert ha, hop]
    exact (h a (Finset.mem_insert_self _ _)).max (ih fun i hi => h i (Finset.mem_insert_of_mem hi))

/-- Every member of the family is at most the fold of the maximum over it. -/
theorem le_fold_max {ι : Type*} (op : EReal → EReal → EReal) [Std.Commutative op] [Std.Associative op]
    (hop : ∀ x y, op x y = Max.max x y) (s : Finset ι) (f : ι → EReal) (b : EReal) {i : ι} (hi : i ∈ s) :
    f i ≤ s.fold op b f := by
  classical
  induction s using Finset.induction_on with
  | empty => exact absurd hi (Finset.notMem_empty i)
  | insert a s ha ih =>
    rw [Finset.fold_insert ha, hop]
    rcases Finset.mem_insert.mp hi with rfl | hi'
    · exact le_max_left _ _
    · exact (ih hi').trans (le_max_right _ _)

/-! ## Absolute value below `+∞` -/

/-- An extended real whose absolute value `max x (-x)` is below `+∞` is a finite real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-! ## Four f32 words -/

/-- The f32 word `0x00000000` denotes the real `0`. -/
theorem ofBits_zero : Ideal.ofBits .f32 0x00000000#32 = ((0 : ℝ) : EReal) := by
  rw [Ideal.ofBits_zero_f32, EReal.coe_zero]

/-- The f32 word `0x00000000` denotes a finite real. -/
theorem isReal_ofBits_zero : IsReal (Ideal.ofBits .f32 0x00000000#32) := ⟨0, ofBits_zero⟩

/-- The f32 word `0x49000000` denotes the real `524288 = 2^19`. -/
theorem ofBits_524288 : Ideal.ofBits .f32 0x49000000#32 = ((524288 : ℝ) : EReal) := by
  simp [Ideal.ofBits, Ideal.ieee, -EReal.coe_mul]; norm_num

/-- The real `524288` is not zero. -/
theorem real_524288_ne_zero : (524288 : ℝ) ≠ 0 := by norm_num

/-- The f32 word `0x7F800000` denotes `+∞`. -/
theorem ofBits_pos_inf : Ideal.ofBits .f32 0x7F800000#32 = ⊤ := by
  simp [Ideal.ofBits, Ideal.ieee]

/-- The f32 word `0xFF800000` denotes `-∞`. -/
theorem ofBits_neg_inf : Ideal.ofBits .f32 0xFF800000#32 = ⊥ := by
  simp [Ideal.ofBits, Ideal.ieee]

end Cert.LibReal

end
-- ==== Proof.Words.lean ====
/-
  The f32 words the per-pixel rescale is written with, read as real numbers: 2⁻⁹ (the kernel multiplies a
  pixel's sum over its 32 × 16 samples by it), 512 (the reference divides the same sum by it), 1/4 (the
  threshold α on the pixel's mean), 3/4 (1 − α) and 1. Each is a dyadic rational, so the word denotes it exactly.
-/
import proofs.«410825_j22316650070834_3_alg».proof.Proof.LibReal

noncomputable section

namespace Cert.Rescale.Words

open Idealize.ShloMosaic

/-- `0x3B000000` is 2⁻⁹ = 1/512. -/
theorem inv512 : Ideal.ofBits .f32 0x3B000000#32 = ((1 / 512 : ℝ) : EReal) := by
  simp [Ideal.ofBits, Ideal.ieee, -EReal.coe_mul]; norm_num

/-- `0x44000000` is 512. -/
theorem n512 : Ideal.ofBits .f32 0x44000000#32 = ((512 : ℝ) : EReal) := by
  simp [Ideal.ofBits, Ideal.ieee, -EReal.coe_mul]; norm_num

/-- `0x3E800000` is 1/4. -/
theorem quarter : Ideal.ofBits .f32 0x3E800000#32 = ((1 / 4 : ℝ) : EReal) := by
  simp [Ideal.ofBits, Ideal.ieee, -EReal.coe_mul]; norm_num

/-- `0x3F400000` is 3/4. -/
theorem threeQuarters : Ideal.ofBits .f32 0x3F400000#32 = ((3 / 4 : ℝ) : EReal) := by
  simp [Ideal.ofBits, Ideal.ieee, -EReal.coe_mul]; norm_num

/-- `0x3F800000` is 1. -/
theorem one : Ideal.ofBits .f32 0x3F800000#32 = ((1 : ℝ) : EReal) := by
  simp [Ideal.ofBits, Ideal.ieee, -EReal.coe_mul]; norm_num

end Cert.Rescale.Words

end
-- ==== Proof.PixelLaw.lean ====
/-
  One element of the rescale, as a function of the element `x` and of its pixel's mean `p` (the mean of
  the input over batch and channel at that pixel), with α = 1/4:

    where p ≥ α :  x · α / p                       (the pixel's mean is brought down to α)
    elsewhere   :  1 − β · (1 − x),  β = (1 − α) / (1 − p)

  One program computes it branch by branch in that form. The other first forms two per-pixel
  coefficients, a slope m = (p ≥ α ? α / p : β) and a shift a = (p ≥ α ? 0 : 1 − β), and then x · m + a.
  For finite x and p the two agree: x · α / p = x · (α / p) + 0 since p ≥ α > 0 is not zero, and
  1 − β (1 − x) = x β + (1 − β) since 1 − p > 3/4 is not zero, so β is a real number and the identity is
  distributivity over the reals. (At an infinite x or p neither step is available on the extended reals.)
  The mean itself is the pixel's sum S times 2⁻⁹ in one program and (0 + S) / 512 in the other: the same real.
-/
import proofs.«410825_j22316650070834_3_alg».proof.Proof.Words
import Idealize.ShloMosaic.Lib.ValueIdx

noncomputable section

namespace Cert.Rescale

open Idealize.ShloMosaic Idealize.ShloMosaic.ValueIdx Cert.LibReal

/-- The slope of a pixel of mean `p`: α / p where p ≥ α, else β = (1 − α) / (1 − p). -/
def slope (p : EReal) : EReal :=
  Scalar.select (Ideal.cmp .oge p (Ideal.ofBits .f32 0x3E800000#32))
    (Ideal.div (Ideal.ofBits .f32 0x3E800000#32) p)
    (Ideal.div (Ideal.ofBits .f32 0x3F400000#32) (Ideal.ofBits .f32 0x3F800000#32 - p))

/-- The shift of a pixel of mean `p`: 0 where p ≥ α, else 1 − β. -/
def shift (p : EReal) : EReal :=
  Scalar.select (Ideal.cmp .oge p (Ideal.ofBits .f32 0x3E800000#32))
    (Ideal.ofBits .f32 0x00000000#32)
    (Ideal.ofBits .f32 0x3F800000#32
      - Ideal.div (Ideal.ofBits .f32 0x3F400000#32) (Ideal.ofBits .f32 0x3F800000#32 - p))

/-- The element in branch form. -/
def branchForm (x p : EReal) : EReal :=
  Scalar.select (Ideal.cmp .oge p (Ideal.ofBits .f32 0x3E800000#32))
    (Ideal.div (x * Ideal.ofBits .f32 0x3E800000#32) p)
    (Ideal.ofBits .f32 0x3F800000#32
      - Ideal.div (Ideal.ofBits .f32 0x3F400000#32) (Ideal.ofBits .f32 0x3F800000#32 - p)
        * (Ideal.ofBits .f32 0x3F800000#32 - x))

/-- The mean of a pixel whose samples sum to `S`, as a product with 2⁻⁹. -/
def meanByProduct (S : EReal) : EReal := S * Ideal.ofBits .f32 0x3B000000#32

/-- The same mean as a quotient by 512 of the sum started from the word 0. -/
def meanByQuotient (S : EReal) : EReal :=
  Ideal.div (Ideal.ofBits .f32 0x00000000#32 + S) (Ideal.ofBits .f32 0x44000000#32)

/-- The threshold test on real numbers. -/
theorem cmp_ge_of_le {p : ℝ} (h : (1 / 4 : ℝ) ≤ p) :
    Ideal.cmp .oge (p : EReal) ((1 / 4 : ℝ) : EReal) = 1#1 := by
  show BitVec.ofBool (decide (((1 / 4 : ℝ) : EReal) ≤ (p : EReal))) = 1#1
  rw [decide_eq_true (EReal.coe_le_coe_iff.mpr h)]; rfl

theorem cmp_ge_of_lt {p : ℝ} (h : p < (1 / 4 : ℝ)) :
    Ideal.cmp .oge (p : EReal) ((1 / 4 : ℝ) : EReal) = 0#1 := by
  show BitVec.ofBool (decide (((1 / 4 : ℝ) : EReal) ≤ (p : EReal))) = 0#1
  rw [decide_eq_false (fun hle => absurd (EReal.coe_le_coe_iff.mp hle) (not_le.mpr h))]; rfl

/-- For a finite element and a finite mean, the branch form is slope times element plus shift. -/
theorem branchForm_eq (x p : ℝ) :
    branchForm (x : EReal) (p : EReal) = (x : EReal) * slope (p : EReal) + shift (p : EReal) := by
  unfold branchForm slope shift
  simp only [Words.quarter, Words.threeQuarters, Words.one, Ideal.ofBits_zero_f32]
  by_cases h : (1 / 4 : ℝ) ≤ p
  · have hp : p ≠ 0 := by intro e; rw [e] at h; norm_num at h
    rw [cmp_ge_of_le h]
    simp only [select_one]
    rw [← EReal.coe_mul, div_coe_coe _ hp, div_coe_coe _ hp, ← EReal.coe_mul, add_zero]
    congr 1
    field_simp
  · have hlt : p < 1 / 4 := not_le.mp h
    have hq : (1 : ℝ) - p ≠ 0 := by intro e; linarith
    rw [cmp_ge_of_lt hlt]
    simp only [select_zero]
    rw [← EReal.coe_sub, ← EReal.coe_sub, div_coe_coe _ hq, ← EReal.coe_mul, ← EReal.coe_sub,
      ← EReal.coe_mul, ← EReal.coe_sub, ← EReal.coe_add]
    congr 1
    ring

/-- Over a finite sum the two spellings of the mean are one real number. -/
theorem meanByQuotient_coe (S : ℝ) : meanByQuotient (S : EReal) = ((S / 512 : ℝ) : EReal) := by
  unfold meanByQuotient
  rw [Ideal.ofBits_zero_f32, zero_add, Words.n512, div_coe_coe _ (by norm_num : (512 : ℝ) ≠ 0)]

theorem meanByProduct_coe (S : ℝ) : meanByProduct (S : EReal) = ((S / 512 : ℝ) : EReal) := by
  unfold meanByProduct
  rw [Words.inv512, ← EReal.coe_mul]
  congr 1
  ring

end Cert.Rescale

end
-- ==== Proof.Spec.lean ====
/-
  The rescale as ONE function of the input array x : [32, 256, 256, 16] (batch, row, column, channel).
  A pixel (h, w) has 32 × 16 samples; S(h, w) is their sum and p = S · 2⁻⁹ their mean. Every element of the
  pixel is sent to x · slope(p) + shift(p) (PixelLaw: the slope and shift of a pixel of mean p).

  The same function on the array with column and channel merged into one lane axis, [32, 256, 4096] with
  lane l = 16 w + c: the pixel of lane l is the sixteen lanes 16 (l / 16) + c, so an element depends on
  its own image row only — all 32 batch entries of that row — which is what lets a block of eight rows be
  computed from the same eight rows of the input.
-/
import proofs.«410825_j22316650070834_3_alg».proof.Proof.PixelLaw

noncomputable section

namespace Cert.Rescale

open Idealize.ShloMosaic Idealize.ShloMosaic.ValueIdx
open scoped BigOperators

/-- The array's shape, and the shape with column and channel merged. -/
abbrev SArr : Shape := ⟨4, ![32, 256, 256, 16]⟩
abbrev SFlat : Shape := ⟨3, ![32, 256, 4096]⟩

/-- Lane 16 w + c of a row. -/
def laneAt (w : Fin 256) (c : Fin 16) : Fin 4096 := ⟨w.val * 16 + c.val, by have := w.isLt; have := c.isLt; omega⟩

/-- Channel `c` of the pixel that lane `l` belongs to. -/
def pixelLane (l : Fin 4096) (c : Fin 16) : Fin 4096 :=
  ⟨l.val / 16 * 16 + c.val, by have := l.isLt; have := c.isLt; omega⟩

theorem pixelLane_laneAt (w : Fin 256) (c c' : Fin 16) : pixelLane (laneAt w c) c' = laneAt w c' := by
  apply Fin.ext
  show (w.val * 16 + c.val) / 16 * 16 + c'.val = w.val * 16 + c'.val
  have := c.isLt
  omega

/-! ## On one image row, lanes merged -/

/-- The sum of the samples of the pixel of lane `l`, over one image row `row : batch → lane → value`:
    channel outermost, batch innermost. -/
def rowPixelSum (row : Fin 32 → Fin 4096 → EReal) (l : Fin 4096) : EReal :=
  ∑ c : Fin 16, ∑ b : Fin 32, row b (pixelLane l c)

/-- The rescaled row. -/
def rowResult (row : Fin 32 → Fin 4096 → EReal) (b : Fin 32) (l : Fin 4096) : EReal :=
  row b l * slope (meanByProduct (rowPixelSum row l)) + shift (meanByProduct (rowPixelSum row l))

/-- The rescaled array, lanes merged: row by row. -/
def flatResult (X : SFlat.Idx → EReal) : SFlat.Idx → EReal := fun j =>
  rowResult (fun b l => X (ix3 b (j 1) l)) (j 0) (j 2)

/-! ## On the array itself -/

/-- The sum of the samples of pixel (h, w). -/
def pixelSum (x : SArr.Idx → EReal) (h w : Fin 256) : EReal :=
  ∑ c : Fin 16, ∑ b : Fin 32, x (ix4 b h w c)

/-- The rescaled array. -/
def result (x : SArr.Idx → EReal) : SArr.Idx → EReal := fun i =>
  x i * slope (meanByProduct (pixelSum x (i 1) (i 2))) + shift (meanByProduct (pixelSum x (i 1) (i 2)))

/-- The two forms agree through the merge of column and channel: if `X` at lane 16 w + c is `x` at (w, c),
    then the flat result at lane 16 w + c is the result at (w, c). -/
theorem flatResult_laneAt (x : SArr.Idx → EReal) (X : SFlat.Idx → EReal)
    (hX : ∀ (b : Fin 32) (h w : Fin 256) (c : Fin 16), X (ix3 b h (laneAt w c)) = x (ix4 b h w c))
    (b : Fin 32) (h w : Fin 256) (c : Fin 16) :
    flatResult X (ix3 b h (laneAt w c)) = result x (ix4 b h w c) := by
  have hS : rowPixelSum (fun b' l => X (ix3 b' h l)) (laneAt w c) = pixelSum x h w := by
    unfold rowPixelSum pixelSum
    refine Finset.sum_congr rfl fun c' _ => Finset.sum_congr rfl fun b' _ => ?_
    rw [pixelLane_laneAt]
    exact hX b' h w c'
  show X (ix3 b h (laneAt w c)) * slope (meanByProduct (rowPixelSum (fun b' l => X (ix3 b' h l)) (laneAt w c)))
      + shift (meanByProduct (rowPixelSum (fun b' l => X (ix3 b' h l)) (laneAt w c)))
    = x (ix4 b h w c) * slope (meanByProduct (pixelSum x h w)) + shift (meanByProduct (pixelSum x h w))
  rw [hS, hX]

end Cert.Rescale

end
-- ==== Proof.Payload.lean ====
/-
  What the body stores, read at one element of the block. The body holds a block of eight image rows,
  x0 : [32, 8, 4096] (batch, row within the block, lane = 16 · column + channel). It sums the block over the
  batch, splits the lane axis back into (column, channel), sums over the channel — so it has, per pixel of
  its eight rows, the sum of the pixel's 512 samples —, scales by 2⁻⁹, forms the pixel's slope and shift,
  and carries both back to every channel of the pixel and every batch entry: x0 · slope + shift.
  At element (b, r, l) this is the rescaled row r of the block (Spec: `rowResult`) at (b, l).
-/
import proofs.«410825_j22316650070834_3_alg».proof.Proof.Gen.KernelIdeal.Skeleton
import proofs.«410825_j22316650070834_3_alg».proof.Proof.Spec
import Idealize.ShloMosaic.Lib.Pipeline.Value
import Idealize.ShloMosaic.PureOps.Ideal.Laws

noncomputable section

namespace Cert.KernelIdeal.Payload

open Cert.KernelIdeal Idealize.ShloMosaic Idealize.ShloMosaic.ValueIdx Cert.Rescale
open Facts₀
open scoped BigOperators

/-! ## The body's stages -/

/-- The block summed over the batch: one value per (row, lane). -/
def batchSum (x0 : FVec Ideal S32x8x4096 .f32) : FVec Ideal S8x4096 .f32 :=
  multiReduction .add [0] S8x4096 (shapeCast S32x8x4096 x0 shapeCasts_S32x8x4096_S32x8x4096) 0x00000000#32
    reduces_S32x8x4096_S8x4096 (.inl rfl) rfl

/-- Then over the channel: one value per (row, column), the pixel's sum. -/
def pixSum (x0 : FVec Ideal S32x8x4096 .f32) : FVec Ideal S8x256 .f32 :=
  multiReduction .add [2] S8x256 (shapeCast S8x256x16 (batchSum x0) shapeCasts_S8x4096_S8x256x16) 0x00000000#32
    reduces_S8x256x16_S8x256 (.inl rfl) rfl

/-- The pixel's mean. -/
def pixMean (x0 : FVec Ideal S32x8x4096 .f32) : FVec Ideal S8x256 .f32 :=
  mulf (pixSum x0) (broadcast S8x256 (Scalar.ofBits .f32 0x3B000000#32))

/-- The slope of every pixel of the block. -/
def slopeVec (p : FVec Ideal S8x256 .f32) : FVec Ideal S8x256 .f32 :=
  select (cmpf .oge p (broadcast S8x256 (Scalar.ofBits .f32 0x3E800000#32)))
    (divf (broadcast S8x256 (Scalar.ofBits .f32 0x3E800000#32)) p)
    (divf (broadcast S8x256 (Scalar.ofBits .f32 0x3F400000#32)) (subf (broadcast S8x256 (Scalar.ofBits .f32 0x3F800000#32)) p))

/-- The shift of every pixel of the block. -/
def shiftVec (p : FVec Ideal S8x256 .f32) : FVec Ideal S8x256 .f32 :=
  select (cmpf .oge p (broadcast S8x256 (Scalar.ofBits .f32 0x3E800000#32)))
    (broadcast S8x256 (Scalar.ofBits .f32 0x00000000#32))
    (subf (broadcast S8x256 (Scalar.ofBits .f32 0x3F800000#32))
      (divf (broadcast S8x256 (Scalar.ofBits .f32 0x3F400000#32)) (subf (broadcast S8x256 (Scalar.ofBits .f32 0x3F800000#32)) p)))

/-- A per-pixel value carried to every channel of its pixel and every batch entry. -/
def spread (v : FVec Ideal S8x256 .f32) : FVec Ideal S32x8x4096 .f32 :=
  broadcastTo S32x8x4096
    (shapeCast S1x8x4096
      (shapeCast S8x4096
        (broadcastTo S8x256x16
          (shapeCast S8x256x1 (shapeCast S8x256x1 v shapeCasts_S8x256_S8x256x1) shapeCasts_S8x256x1_S8x256x1)
          broadcasts_S8x256x1_S8x256x16)
        shapeCasts_S8x256x16_S8x4096)
      shapeCasts_S8x4096_S1x8x4096)
    broadcasts_S1x8x4096_S32x8x4096

/-- The body's payload is these stages composed. -/
theorem pay_eq (x0 : Vec Ideal S32x8x4096 .f32) :
    Gen.k0_pay1 (F := Ideal) x0
      = addf (mulf (shapeCast S32x8x4096 x0 shapeCasts_S32x8x4096_S32x8x4096) (spread (slopeVec (pixMean x0))))
          (spread (shiftVec (pixMean x0))) := rfl

/-! ## Each stage at an index -/

/-- The batch sum at (r, l). -/
theorem batchSum_apply (x0 : FVec Ideal S32x8x4096 .f32) (r : Fin 8) (l : Fin 4096) :
    batchSum x0 (ix2 r l) = ∑ b : Fin 32, x0 (ix3 b r l) := by
  unfold batchSum
  rw [shapeCast_self]
  refine (Ideal.multiReduction_add_single x0 _ reduces_S32x8x4096_S8x4096 _ _ (ix2 r l)).trans ?_
  refine Finset.sum_congr rfl fun b _ => congrArg x0 ?_
  funext a
  match a with
  | ⟨0, _⟩ => rfl
  | ⟨1, _⟩ => rfl
  | ⟨2, _⟩ => rfl

/-- Splitting the lane axis: (r, w, c) of the split is (r, 16 w + c). -/
theorem split_apply (v : FVec Ideal S8x4096 .f32) (r : Fin 8) (w : Fin 256) (c : Fin 16) :
    shapeCast S8x256x16 v shapeCasts_S8x4096_S8x256x16 (ix3 r w c) = v (ix2 r (laneAt w c)) := by
  refine shapeCast_apply v _ (ix3 r w c) (ix2 r (laneAt w c)) ?_
  rw [Shape.rowMajor_val_two, Shape.rowMajor_val_three]
  show r.val * 4096 + (w.val * 16 + c.val) = (r.val * 256 + w.val) * 16 + c.val
  omega

/-- The pixel's sum at (r, w): over its sixteen channels, of the batch sums. -/
theorem pixSum_apply (x0 : FVec Ideal S32x8x4096 .f32) (r : Fin 8) (w : Fin 256) :
    pixSum x0 (ix2 r w) = ∑ c : Fin 16, ∑ b : Fin 32, x0 (ix3 b r (laneAt w c)) := by
  unfold pixSum
  refine (Ideal.multiReduction_add_single _ _ reduces_S8x256x16_S8x256 _ _ (ix2 r w)).trans ?_
  show ∑ c : Fin 16, (shapeCast S8x256x16 (batchSum x0) shapeCasts_S8x4096_S8x256x16)
      (reduces_S8x256x16_S8x256.lift (ix2 r w) c) = _
  refine Finset.sum_congr rfl fun c _ => ?_
  have e : (reduces_S8x256x16_S8x256.lift (ix2 r w) c) = ix3 r w c := by
    funext a
    match a with
    | ⟨0, _⟩ => rfl
    | ⟨1, _⟩ => rfl
    | ⟨2, _⟩ => rfl
  rw [e, split_apply, batchSum_apply]

/-- The pixel's mean at (r, w). -/
theorem pixMean_apply (x0 : FVec Ideal S32x8x4096 .f32) (r : Fin 8) (w : Fin 256) :
    pixMean x0 (ix2 r w) = meanByProduct (∑ c : Fin 16, ∑ b : Fin 32, x0 (ix3 b r (laneAt w c))) := by
  show pixSum x0 (ix2 r w) * Ideal.ofBits .f32 0x3B000000#32 = _
  rw [pixSum_apply]
  rfl

/-- The slopes and shifts are the pixel law's, pixel by pixel. -/
theorem slopeVec_apply (p : FVec Ideal S8x256 .f32) (j : S8x256.Idx) : slopeVec p j = slope (p j) := rfl
theorem shiftVec_apply (p : FVec Ideal S8x256 .f32) (j : S8x256.Idx) : shiftVec p j = shift (p j) := rfl

/-- A spread value at (b, r, l) is the pixel's: column l / 16 of row r. -/
theorem spread_apply (v : FVec Ideal S8x256 .f32) (b : Fin 32) (r : Fin 8) (l : Fin 4096) :
    spread v (ix3 b r l) = v (ix2 r ⟨l.val / 16, by have := l.isLt; omega⟩) := by
  unfold spread
  have hl := l.isLt
  refine (broadcastTo_apply _ broadcasts_S1x8x4096_S32x8x4096 (ix3 b r l) (ix3 (⟨0, Nat.one_pos⟩ : Fin 1) r l) ?_).trans ?_
  · intro a
    match a with
    | ⟨0, _⟩ => rfl
    | ⟨1, _⟩ => rfl
    | ⟨2, _⟩ => rfl
  refine (shapeCast_apply _ shapeCasts_S8x4096_S1x8x4096 (ix3 (⟨0, Nat.one_pos⟩ : Fin 1) r l) (ix2 r l) ?_).trans ?_
  · rw [Shape.rowMajor_val_two, Shape.rowMajor_val_three]
    show r.val * 4096 + l.val = (0 * 8 + r.val) * 4096 + l.val
    omega
  refine (shapeCast_apply _ shapeCasts_S8x256x16_S8x4096 (ix2 r l)
    (ix3 r (⟨l.val / 16, by omega⟩ : Fin 256) (⟨l.val % 16, Nat.mod_lt _ (by decide)⟩ : Fin 16)) ?_).trans ?_
  · rw [Shape.rowMajor_val_two, Shape.rowMajor_val_three]
    show (r.val * 256 + l.val / 16) * 16 + l.val % 16 = r.val * 4096 + l.val
    omega
  refine (broadcastTo_apply _ broadcasts_S8x256x1_S8x256x16
    (ix3 r (⟨l.val / 16, by omega⟩ : Fin 256) (⟨l.val % 16, Nat.mod_lt _ (by decide)⟩ : Fin 16))
    (ix3 r (⟨l.val / 16, by omega⟩ : Fin 256) (⟨0, Nat.one_pos⟩ : Fin 1)) ?_).trans ?_
  · intro a
    match a with
    | ⟨0, _⟩ => rfl
    | ⟨1, _⟩ => rfl
    | ⟨2, _⟩ => rfl
  rw [shapeCast_self]
  refine shapeCast_apply v shapeCasts_S8x256_S8x256x1 (ix3 r (⟨l.val / 16, by omega⟩ : Fin 256) (⟨0, Nat.one_pos⟩ : Fin 1))
    (ix2 r ⟨l.val / 16, by omega⟩) ?_
  rw [Shape.rowMajor_val_two, Shape.rowMajor_val_three]
  show r.val * 256 + l.val / 16 = (r.val * 256 + l.val / 16) * 1 + 0
  omega

/-! ## The payload at an element -/

/-- THE PAYLOAD AT (b, r, l): row r of the block, rescaled, at (b, l). -/
theorem pay_apply (x0 : Vec Ideal S32x8x4096 .f32) (b : Fin 32) (r : Fin 8) (l : Fin 4096) :
    Gen.k0_pay1 (F := Ideal) x0 (ix3 b r l) = rowResult (fun b' l' => x0 (ix3 b' r l')) b l := by
  rw [pay_eq]
  show (shapeCast S32x8x4096 x0 shapeCasts_S32x8x4096_S32x8x4096) (ix3 b r l) * spread (slopeVec (pixMean x0)) (ix3 b r l)
      + spread (shiftVec (pixMean x0)) (ix3 b r l) = _
  rw [shapeCast_self, spread_apply, spread_apply, slopeVec_apply, shiftVec_apply, pixMean_apply]
  rfl

/-- THE PAYLOAD OF A BLOCK OF ROWS. If row r of the block is image row h of the array X — every batch entry, every lane —,
    the payload at (b, r, l) is the rescaled array at (b, h, l). -/
theorem pay_block (X : SFlat.Idx → EReal) (x0 : Vec Ideal S32x8x4096 .f32) (h : Fin 256) (b : Fin 32) (r : Fin 8) (l : Fin 4096)
    (hx : ∀ (b' : Fin 32) (l' : Fin 4096), x0 (ix3 b' r l') = X (ix3 b' h l')) :
    Gen.k0_pay1 (F := Ideal) x0 (ix3 b r l) = flatResult X (ix3 b h l) := by
  rw [pay_apply]
  show rowResult (fun b' l' => x0 (ix3 b' r l')) b l = rowResult (fun b' l' => X (ix3 b' h l')) b l
  exact congrArg (fun row => rowResult row b l) (funext fun b' => funext fun l' => hx b' l')

end Cert.KernelIdeal.Payload

end
-- ==== Proof.Merge.lean ====
/-
  Merging column and channel into one lane axis and splitting them again are reshapes: both keep the
  row-major position, ((b · 256 + h) · 256 + w) · 16 + c = (b · 256 + h) · 4096 + (16 w + c). So rescaling the
  merged array and splitting the result is rescaling the array.
-/
import proofs.«410825_j22316650070834_3_alg».proof.Proof.Spec
import Idealize.ShloMosaic.Lib.Pipeline.Value

noncomputable section

namespace Cert.Rescale

open Idealize.ShloMosaic Idealize.ShloMosaic.ValueIdx

/-- The merged array at lane 16 w + c is the array at (w, c). -/
theorem merge_apply (x : SArr.Idx → EReal) (h1 : SArr.ShapeCasts SFlat) (b : Fin 32) (h w : Fin 256) (c : Fin 16) :
    shapeCast SFlat x h1 (ix3 b h (laneAt w c)) = x (ix4 b h w c) := by
  refine shapeCast_apply x h1 (ix3 b h (laneAt w c)) (ix4 b h w c) ?_
  rw [Shape.rowMajor_val_three, Shape.rowMajor_val_four]
  show ((b.val * 256 + h.val) * 256 + w.val) * 16 + c.val = (b.val * 256 + h.val) * 4096 + (w.val * 16 + c.val)
  omega

/-- The split array at (w, c) is the merged one at lane 16 w + c. -/
theorem split_apply (X : SFlat.Idx → EReal) (h2 : SFlat.ShapeCasts SArr) (b : Fin 32) (h w : Fin 256) (c : Fin 16) :
    shapeCast SArr X h2 (ix4 b h w c) = X (ix3 b h (laneAt w c)) := by
  refine shapeCast_apply X h2 (ix4 b h w c) (ix3 b h (laneAt w c)) ?_
  rw [Shape.rowMajor_val_three, Shape.rowMajor_val_four]
  show (b.val * 256 + h.val) * 4096 + (w.val * 16 + c.val) = ((b.val * 256 + h.val) * 256 + w.val) * 16 + c.val
  omega

/-- Merge, rescale row by row, split: the rescale. -/
theorem split_flatResult_merge (x : SArr.Idx → EReal) (h1 : SArr.ShapeCasts SFlat) (h2 : SFlat.ShapeCasts SArr) :
    shapeCast SArr (flatResult (shapeCast SFlat x h1)) h2 = result x := by
  funext i
  obtain ⟨b, h, w, c, rfl⟩ : ∃ (b : Fin 32) (h w : Fin 256) (c : Fin 16), i = ix4 b h w c :=
    ⟨i 0, i 1, i 2, i 3, eq_ix4 i⟩
  rw [split_apply]
  exact flatResult_laneAt x (shapeCast SFlat x h1) (fun b h w c => merge_apply x h1 b h w c) b h w c

end Cert.Rescale

end
-- ==== Proof.KernelValue.lean ====
/-
  The kernel's run, read as a value. @main merges column and channel of the input (a reshape), runs the
  body at 32 grid points, and splits the lanes of the result again (a reshape). Point t holds image rows
  8 t … 8 t + 7 of the merged array — all 32 batch entries, all 4096 lanes — and writes back the same rows of
  the result. Since a rescaled element depends on its own image row only, what point t writes back is
  block t of the rescaled merged array; the 32 blocks tile the array (row h lies in block h / 8), so the
  result array ends holding the rescaled merged array, and @main's result is its split: the rescale.
-/
import proofs.«410825_j22316650070834_3_alg».proof.Proof.Gen.KernelIdeal.Frame
import proofs.«410825_j22316650070834_3_alg».proof.Proof.Payload
import proofs.«410825_j22316650070834_3_alg».proof.Proof.Merge
import Idealize.ShloMosaic.Lib.Pipeline.Value
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.Rescale
open Idealize.ShloMosaic.Pipeline (Dat Cfg Window)

variable (m : (ℓ : Loc nD τ sig) → Buf (Elt Ideal) ℓ) (ρ : Dev nD → PrngReg)

/-- The unit rectangle's offsets are zero. -/
theorem hz : (![0, 0, 0] : Fin 3 → Nat) = fun _ => 0 := funext fun a => by fin_cases a <;> rfl

/-- The merged array as the region finds it, at its literal type. -/
abbrev xarr (c : Dev nD) : SFlat.Idx → EReal := V m c main_v0

/-- Both windows' block at point t is (0, t, 0): all batch entries, rows 8 t … 8 t + 7, all lanes. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0 :=
  (by decide +kernel : ∀ t : Fin grid0.N, _)

/-- WHAT POINT t WRITES BACK is block t of the rescaled merged array. -/
theorem flushed_eq (c : Dev nD) (t : Fin cfg0.N) :
    (dats m 0 c).flushed 1 t = ((cfg0.win 1).blk t).view.read (Elt Ideal) (flatResult (xarr m c)) := by
  show (cfg0.win 1).cut (grid0.coords t) ((dats m 0 c).after 1 t) = _
  rw [after0_1]
  unfold out0_1
  rw [View.canon_unit_zero hz]
  simp only [View.ld_unit_zero (S := S32x8x4096) hz]
  obtain ⟨e0, e1, e2, e3, e4, e5⟩ := idx_facts t
  have ht : t.val < 32 := by have h := t.isLt; have hN : cfg0.N = 32 := N_0; omega
  funext y
  obtain ⟨b, r, l, rfl⟩ : ∃ (b : Fin 32) (r : Fin 8) (l : Fin 4096), y = ix3 b r l := ⟨y 0, y 1, y 2, eq_ix3 y⟩
  have hb : b.val < 32 := b.isLt
  have hr : r.val < 8 := r.isLt
  have hl : l.val < 4096 := l.isLt
  show k0_pay1 (F := Ideal) (iblk m c 0 t) (ix3 b r l) = flatResult (xarr m c) (((cfg0.win 1).blk t).view.emb (ix3 b r l))
  have hemb : ((cfg0.win 1).blk t).view.emb (ix3 b r l) = ix3 b (⟨t.val * 8 + r.val, by omega⟩ : Fin 256) l := by
    funext a; apply Fin.ext
    match a with
    | ⟨0, _⟩ => show win0_1.index t (0 : Fin 3) * 32 + 1 * b.val = b.val; omega
    | ⟨1, _⟩ => show win0_1.index t (1 : Fin 3) * 8 + 1 * r.val = t.val * 8 + r.val; omega
    | ⟨2, _⟩ => show win0_1.index t (2 : Fin 3) * 4096 + 1 * l.val = l.val; omega
  rw [hemb]
  refine Payload.pay_block (xarr m c) (iblk m c 0 t) (⟨t.val * 8 + r.val, by omega⟩ : Fin 256) b r l ?_
  intro b' l'
  have hb' : b'.val < 32 := b'.isLt
  have hl' : l'.val < 4096 := l'.isLt
  show V m c main_v0 (((cfg0.win 0).blk t).view.emb (ix3 b' r l')) = V m c main_v0 (ix3 b' (⟨t.val * 8 + r.val, by omega⟩ : Fin 256) l')
  refine congrArg (V m c main_v0) ?_
  funext a; apply Fin.ext
  match a with
  | ⟨0, _⟩ => show win0_0.index t (0 : Fin 3) * 32 + 1 * b'.val = b'.val; omega
  | ⟨1, _⟩ => show win0_0.index t (1 : Fin 3) * 8 + 1 * r.val = t.val * 8 + r.val; omega
  | ⟨2, _⟩ => show win0_0.index t (2 : Fin 3) * 4096 + 1 * l'.val = l'.val; omega

/-- An index of the result array is in point t's block iff each coordinate is in the block's range. -/
theorem mem_blk (t : Fin cfg0.N) (i : S32x256x4096.Idx) :
    i ∈ ((cfg0.win 1).blk t).view.set ↔ ∀ a : Fin 3, win0_1.index t a * S32x8x4096.size a ≤ (i a).val
      ∧ (i a).val < win0_1.index t a * S32x8x4096.size a + S32x8x4096.size a := by
  show i ∈ ((View.whole main_v1).slice (win0_1.rect t)).set ↔ _
  rw [View.set_slice_whole, Rect.mem_set_unit]
  exact Iff.rfl

/-- Every index is in the block of the point its row divided by eight names. -/
theorem cover (i : S32x256x4096.Idx) :
    ∃ t : Fin cfg0.N, (cfg0.win 1).flush t = true ∧ i ∈ ((cfg0.win 1).blk t).view.set := by
  have hi0 : (i 0).val < 32 := (i 0).isLt
  have hi1 : (i 1).val < 256 := (i 1).isLt
  have hi2 : (i 2).val < 4096 := (i 2).isLt
  have hN : cfg0.N = 32 := N_0
  let t : Fin cfg0.N := ⟨(i 1).val / 8, by rw [hN]; omega⟩
  have htv : t.val = (i 1).val / 8 := rfl
  obtain ⟨e0, e1, e2, e3, e4, e5⟩ := idx_facts t
  refine ⟨t, flush0_1 t, ?_⟩
  rw [mem_blk]
  intro a
  match a with
  | ⟨0, _⟩ => show win0_1.index t (0 : Fin 3) * 32 ≤ (i 0).val ∧ (i 0).val < win0_1.index t (0 : Fin 3) * 32 + 32; omega
  | ⟨1, _⟩ => show win0_1.index t (1 : Fin 3) * 8 ≤ (i 1).val ∧ (i 1).val < win0_1.index t (1 : Fin 3) * 8 + 8; omega
  | ⟨2, _⟩ => show win0_1.index t (2 : Fin 3) * 4096 ≤ (i 2).val ∧ (i 2).val < win0_1.index t (2 : Fin 3) * 4096 + 4096; omega

/-- THE RESULT ARRAY after the region is the rescaled merged array. -/
theorem final (c : Dev nD) : (dats m 0 c).arrAt 1 cfg0.N = flatResult (xarr m c) :=
  (dats m 0 c).arrAt_eq_of_cover 1 (flatResult (xarr m c)) (fun t _ => flushed_eq m c t) cover

/-- The merged array the region finds is the reshape of the input as launched. -/
theorem xarr_eq (c : Dev nD) :
    xarr m c = shapeCast S32x256x4096 (m ((c : Thread nD τ).loc main_arg0)) Facts₀.shapeCasts_S32x256x256x16_S32x256x4096 := by
  show StableHlo.after hostOps0 (fun b => m (c, b)) (Proc.devRef .tc main_v0) = _
  after_results
  rfl

/-- @main's result after the lines that follow the region: the split of the rescaled merged array. -/
theorem tail_eq (c : Dev nD) :
    Pipeline.afterTail₀ cfgs (dats m) 0 (V0 m) [hostOps1] c main_v2
      = shapeCast S32x256x256x16 (flatResult (xarr m c)) Facts₀.shapeCasts_S32x256x4096_S32x256x256x16 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = flatResult (xarr m c) :=
    (Pipeline.withArrays_arr spec0 launch0.win.arr_inj c _ _ 1).trans (final m c)
  rw [hw]
  rfl

/-- @main's result is the rescale of the input as launched: merge, rescale row by row, split. -/
theorem result_eq (c : Dev nD) :
    Pipeline.afterTail₀ cfgs (dats m) 0 (V0 m) [hostOps1] c main_v2 = result (m ((c : Thread nD τ).loc main_arg0)) := by
  rw [tail_eq, xarr_eq]
  exact split_flatResult_merge (m ((c : Thread nD τ).loc main_arg0)) _ _

/-- THE RUN, READ: every weakly fair execution of @main ends with the result buffer at the rescale of the input and the
    input as launched. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.KernelValue

end
-- ==== Proof.RefValue.lean ====
/-
  The reference, read at an element. It sums the input over batch and channel at once (one reduction over
  axes 0 and 3, started from the word 0), divides by 512 for the pixel's mean p, and selects, where
  p ≥ α, x · α / p and elsewhere 1 − β (1 − x): the branch form of the pixel law at the quotient form of the
  mean. The sum over the index set { i : i's row and column are (h, w) } is the double sum over batch and
  channel at (h, w); for a finite input the pixel law then gives slope · x + shift at the same mean.
-/
import proofs.«410825_j22316650070834_3_alg».proof.Proof.Gen.ReferenceIdeal.Read
import proofs.«410825_j22316650070834_3_alg».proof.Proof.Spec
import Idealize.ShloMosaic.Lib.IdealHost

noncomputable section

namespace Cert.ReferenceIdeal.RefValue

open Cert.ReferenceIdeal Cert.ReferenceIdeal.Read Idealize.ShloMosaic Idealize.ShloMosaic.ValueIdx
open Cert.Rescale Cert.LibReal
open Facts₀
open scoped BigOperators

/-- An index whose row and column are those of pixel `j` is (its batch, j's row, j's column, its channel). -/
theorem eq_of_drop (i : S32x256x256x16.Idx) (j : S256x256.Idx)
    (hd : reducesTo_S32x256x256x16_S256x256_d0_3.drop i = j) : ix4 (i 0) (j 0) (j 1) (i 3) = i := by
  have h0 : ((j 0 : Fin 256) : ℕ) = (i 1).val := by
    rw [← hd]; exact Shape.ReducesTo.drop_apply_val_of_eq reducesTo_S32x256x256x16_S256x256_d0_3 i 0 1
  have h1 : ((j 1 : Fin 256) : ℕ) = (i 2).val := by
    rw [← hd]; exact Shape.ReducesTo.drop_apply_val_of_eq reducesTo_S32x256x256x16_S256x256_d0_3 i 1 2
  funext a
  match a with
  | ⟨0, _⟩ => rfl
  | ⟨1, _⟩ => exact Fin.ext h0
  | ⟨2, _⟩ => exact Fin.ext h1
  | ⟨3, _⟩ => rfl

/-- And such an index does drop to the pixel. -/
theorem drop_ix4 (b : Fin 32) (h w : Fin 256) (c : Fin 16) :
    reducesTo_S32x256x256x16_S256x256_d0_3.drop (ix4 b h w c) = ix2 h w := by
  funext a
  match a with
  | ⟨0, _⟩ => exact Fin.ext (Shape.ReducesTo.drop_apply_val_of_eq reducesTo_S32x256x256x16_S256x256_d0_3 (ix4 b h w c) 0 1)
  | ⟨1, _⟩ => exact Fin.ext (Shape.ReducesTo.drop_apply_val_of_eq reducesTo_S32x256x256x16_S256x256_d0_3 (ix4 b h w c) 1 2)

/-- The reduction's index set at a pixel, summed, is the pixel's double sum. -/
theorem sum_drop_eq (x : FVec Ideal S32x256x256x16 .f32) (j : S256x256.Idx) :
    (∑ i ∈ Finset.univ.filter (fun i => reducesTo_S32x256x256x16_S256x256_d0_3.drop i = j), x i)
      = pixelSum x (j 0) (j 1) := by
  unfold pixelSum
  refine Eq.trans ?_ (Fintype.sum_prod_type' (f := fun (c : Fin 16) (b : Fin 32) => x (ix4 b (j 0) (j 1) c)))
  refine Finset.sum_bij' (fun i _ => ((i 3 : Fin 16), (i 0 : Fin 32))) (fun p _ => ix4 p.2 (j 0) (j 1) p.1) ?_ ?_ ?_ ?_ ?_
  · intro i _; exact Finset.mem_univ _
  · intro p _
    rw [Finset.mem_filter]
    exact ⟨Finset.mem_univ _, (drop_ix4 p.2 (j 0) (j 1) p.1).trans (eq_ix2 j).symm⟩
  · intro i hi
    exact eq_of_drop i j (Finset.mem_filter.mp hi).2
  · intro p _; rfl
  · intro i hi
    exact congrArg x (eq_of_drop i j (Finset.mem_filter.mp hi).2).symm

/-- The reference's mean at a pixel: the quotient form over the pixel's sum. -/
theorem mean_apply (x : FVec Ideal S32x256x256x16 .f32) (j : S256x256.Idx) :
    val_main_v2 (F := Ideal) x j = meanByQuotient (pixelSum x (j 0) (j 1)) := by
  rw [val_main_v2_apply, val_main_v1_apply, val_main_cst_0_apply]
  show Ideal.div (Ideal.ofBits .f32 0x00000000#32
      + ∑ i ∈ Finset.univ.filter (fun i => reducesTo_S32x256x256x16_S256x256_d0_3.drop i = j), x i)
    (Ideal.ofBits .f32 0x44000000#32) = _
  rw [sum_drop_eq]
  rfl

/-- The reference's result at an element: the branch form at the element and its pixel's mean. -/
theorem ref_apply (x : FVec Ideal S32x256x256x16 .f32) (i : S32x256x256x16.Idx) :
    val_main_v20 (F := Ideal) x i = branchForm (x i) (meanByQuotient (pixelSum x (i 1) (i 2))) := by
  rw [val_main_v20_apply, val_main_call0_v0_apply, val_main_v9_apply, val_main_v3_apply, val_main_v8_apply,
    val_main_cst_3_apply, val_main_v13_apply, val_main_v11_apply, val_main_v10_apply, val_main_cst_4_apply,
    val_main_v12_apply, val_main_v3_apply, val_main_v19_apply, val_main_v18_apply, val_main_cst_6_apply,
    val_main_v17_apply, val_main_v16_apply, val_main_v7_apply, val_main_v6_apply, val_main_cst_2_apply,
    val_main_v5_apply, val_main_v4_apply, val_main_cst_1_apply, val_main_v3_apply, val_main_v15_apply,
    val_main_v14_apply, val_main_cst_5_apply, mean_apply]
  rfl

/-- FOR A FINITE INPUT the reference computes the rescale of the specification. -/
theorem ref_eq_result (x : FVec Ideal S32x256x256x16 .f32) (hfin : ∀ i, IsReal (x i)) :
    val_main_v20 (F := Ideal) x = result x := by
  funext i
  rw [ref_apply]
  obtain ⟨xr, hx⟩ := hfin i
  obtain ⟨Sr, hS⟩ : IsReal (pixelSum x (i 1) (i 2)) :=
    IsReal.sum_univ _ fun c => IsReal.sum_univ _ fun b => hfin _
  show _ = x i * slope (meanByProduct (pixelSum x (i 1) (i 2))) + shift (meanByProduct (pixelSum x (i 1) (i 2)))
  rw [hx, hS, meanByQuotient_coe, meanByProduct_coe, branchForm_eq]

end Cert.ReferenceIdeal.RefValue

end
-- ==== Proof.Finite.lean ====
/-
  The precondition says every element of the input has absolute value below +∞: the conjunction, over
  all elements, of |x| < +∞. Read back at one element it says the element is neither infinity, that is, a
  real number.
-/
import proofs.«410825_j22316650070834_3_alg».proof.Proof.Gen.Pre_finite_inputs
import proofs.«410825_j22316650070834_3_alg».proof.Proof.LibReal
import Idealize.ShloMosaic.Lib.ReduceAll
import Idealize.ShloMosaic.Lib.IdealHost

noncomputable section

namespace Cert.Rescale.Finite

open Idealize.ShloMosaic Idealize.ShloMosaic.ValueIdx Cert.LibReal Cert.Pre_finite_inputs

/-- The scalar shape has one index. -/
instance : Subsingleton S_.Idx := ⟨fun a b => funext fun d => d.elim0⟩

/-- Under the precondition every element of the input is a finite real. -/
theorem isReal_of_pre (x : FVec Ideal S32x256x256x16 .f32)
    (h : Cert.Pre_finite_inputs.fn (F := Ideal) x = fun _ => 1#1) (i : S32x256x256x16.Idx) : IsReal (x i) := by
  have h0 := congrFun h ix0
  dsimp only [Cert.Pre_finite_inputs.fn] at h0
  have hi := Host.reduce_andi_all _ _ _ _ _ h0 i
  have hb : (broadcastInDim S32x256x256x16 ![] Facts.bcast_S_S32x256x256x16
      (constant (F := Ideal) S_ .f32 0x7F800000#32)) i = (⊤ : EReal) := by
    rw [broadcastInDim_scalar_apply]; exact ofBits_pos_inf
  refine isReal_of_abs_lt_top ?_
  by_contra hnot
  have : (BitVec.ofBool (decide (Max.max (x i) (-(x i)) < (broadcastInDim S32x256x256x16 ![] Facts.bcast_S_S32x256x256x16
      (constant (F := Ideal) S_ .f32 0x7F800000#32)) i))) = 1#1 := hi
  rw [hb, decide_eq_false hnot] at this
  exact absurd this (by decide)

end Cert.Rescale.Finite

end
-- ==== Proof.lean ====
/-
  The rescale of a batch of images towards a target mean α = 1/4, per pixel: with p the mean of the input over
  batch and channel at a pixel, every element of the pixel goes to x · α / p where p ≥ α and to
  1 − β (1 − x), β = (1 − α) / (1 − p), elsewhere.

  The kernel works on the array with column and channel merged into 4096 lanes, eight image rows at a
  grid point: it sums its block over the batch and over each pixel's sixteen lanes, multiplies by 2⁻⁹ for
  the mean, forms per pixel a slope and a shift, and stores x · slope + shift. The reference sums over
  batch and channel in one reduction, divides by 512, and selects between the two branch expressions.
  2⁻⁹ and 1/512 are one real number, a sum of reals does not depend on its grouping, and for a finite
  element and a finite mean the branch expressions are slope · x + shift (distributivity, with p ≠ 0 where
  p ≥ α and 1 − p ≠ 0 where p < α). Finiteness is the precondition; at an infinite input the two differ.

  Frames: the two kernel programs' are the launch of the body at every grid point around the two reshapes;
  the reference's is its run with the result dropped. The idealization rewrote nothing, so `preserves` is
  trivial.
-/
import proofs.«410825_j22316650070834_3_alg».proof.Defs
import proofs.«410825_j22316650070834_3_alg».proof.Proof.Gen.Kernel
import proofs.«410825_j22316650070834_3_alg».proof.Proof.Gen.Kernel.Skeleton
import proofs.«410825_j22316650070834_3_alg».proof.Proof.Gen.Kernel.Launch
import proofs.«410825_j22316650070834_3_alg».proof.Proof.Gen.Kernel.Points
import proofs.«410825_j22316650070834_3_alg».proof.Proof.Gen.Kernel.Frame
import proofs.«410825_j22316650070834_3_alg».proof.Proof.Gen.KernelIdeal
import proofs.«410825_j22316650070834_3_alg».proof.Proof.Gen.KernelIdeal.Skeleton
import proofs.«410825_j22316650070834_3_alg».proof.Proof.Gen.KernelIdeal.Launch
import proofs.«410825_j22316650070834_3_alg».proof.Proof.Gen.KernelIdeal.Points
import proofs.«410825_j22316650070834_3_alg».proof.Proof.Gen.KernelIdeal.Frame
import proofs.«410825_j22316650070834_3_alg».proof.Proof.Gen.ReferenceIdeal
import proofs.«410825_j22316650070834_3_alg».proof.Proof.Gen.Pre_finite_inputs
import proofs.«410825_j22316650070834_3_alg».proof.Proof.Gen.ReferenceIdeal.Run
import proofs.«410825_j22316650070834_3_alg».proof.Proof.Gen.ReferenceIdeal.Read
import proofs.«410825_j22316650070834_3_alg».proof.Proof.KernelValue
import proofs.«410825_j22316650070834_3_alg».proof.Proof.RefValue
import proofs.«410825_j22316650070834_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its argument. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its argument: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From a finite input both programs end at the rescale of the input: the kernel by its run read as a
    value, the reference by its run read at an element and the pixel law. -/
theorem algebraic : Cert.algebraic_KernelIdeal_ReferenceIdeal := by
  intro m ρ m' ρ' hpre hagree
  refine ⟨fun c => Cert.Rescale.result (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, hagree c]
  exact Cert.ReferenceIdeal.RefValue.ref_eq_result _ fun i => Cert.Rescale.Finite.isReal_of_pre _ (hpre c) i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
